-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S512x512 : Shape := ⟨2, ![512, 512]⟩
abbrev S1024x512 : Shape := ⟨2, ![1024, 512]⟩
abbrev S2048x1024 : Shape := ⟨2, ![2048, 1024]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S1024x512 : S_.BroadcastsInDim S1024x512 (![] : Fin 0 → Fin S1024x512.rank)
  reducesTo_S1024x512_S_d0_1 : S1024x512.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4x4096x2048 .f32) (main_arg1 : FVec F S512x512 .f32) (main_arg2 : FVec F S1024x512 .f32) (main_arg3 : FVec F S2048x1024 .f32) (main_arg4 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_v13 main_v16
-- ==== Kernel.lean ====
abbrev S4x4096x2048 : Shape := ⟨3, ![4, 4096, 2048]⟩
abbrev S512x512 : Shape := ⟨2, ![512, 512]⟩
abbrev S1024x512 : Shape := ⟨2, ![1024, 512]⟩
abbrev S2048x1024 : Shape := ⟨2, ![2048, 1024]⟩
abbrev S2048 : Shape := ⟨1, ![2048]⟩
abbrev S_ : Shape := ⟨0, ![]⟩
abbrev S2048x512 : Shape := ⟨2, ![2048, 512]⟩
abbrev S2048x2048 : Shape := ⟨2, ![2048, 2048]⟩
abbrev S16384x2048 : Shape := ⟨2, ![16384, 2048]⟩
abbrev S512x2048 : Shape := ⟨2, ![512, 2048]⟩
abbrev S1x2048 : Shape := ⟨2, ![1, 2048]⟩

abbrev nBuf : Space → Nat
  | .hbm => 19
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S512x512, .f32⟩
  | .hbm, ⟨2, _⟩ => ⟨S1024x512, .f32⟩
  | .hbm, ⟨3, _⟩ => ⟨S2048x1024, .f32⟩
  | .hbm, ⟨4, _⟩ => ⟨S2048, .f32⟩
  | .hbm, ⟨5, _⟩ => ⟨S_, .i32⟩
  | .hbm, ⟨6, _⟩ => ⟨S_, .f32⟩
  | .hbm, ⟨7, _⟩ => ⟨S2048x512, .f32⟩
  | .hbm, ⟨8, _⟩ => ⟨S_, .i32⟩
  | .hbm, ⟨9, _⟩ => ⟨S_, .f32⟩
  | .hbm, ⟨10, _⟩ => ⟨S2048x512, .f32⟩
  | .hbm, ⟨11, _⟩ => ⟨S_, .i32⟩
  | .hbm, ⟨12, _⟩ => ⟨S_, .f32⟩
  | .hbm, ⟨13, _⟩ => ⟨S2048x1024, .f32⟩
  | .hbm, ⟨14, _⟩ => ⟨S2048x2048, .f32⟩
  | .hbm, ⟨15, _⟩ => ⟨S2048x2048, .bf16⟩
  | .hbm, ⟨16, _⟩ => ⟨S16384x2048, .f32⟩
  | .hbm, ⟨17, _⟩ => ⟨S16384x2048, .f32⟩
  | .hbm, ⟨18, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S2048, .f32⟩
  | .local _ .vmem, ⟨4, _⟩ => ⟨S512x2048, .f32⟩
  | .local _ .vmem, ⟨5, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S512x512_S2048x512_015360_000 : S512x512.Pads (![0, 0] : Fin 2 → Nat) ![1536, 0] ![0, 0] S2048x512
  h_S_ : 0 < S_.numel
  pads_S1024x512_S2048x512_010240_000 : S1024x512.Pads (![0, 0] : Fin 2 → Nat) ![1024, 0] ![0, 0] S2048x512
  pads_S2048x1024_S2048x1024_000_000 : S2048x1024.Pads (![0, 0] : Fin 2 → Nat) ![0, 0] ![0, 0] S2048x1024
  concatenates_S2048x512_S2048x512_S2048x1024_S2048x2048_d1 : Shape.Concatenates [S2048x512, S2048x512, S2048x1024] S2048x2048 1
  bitsLt_bf16_f32 : FTy.bits .bf16 < FTy.bits .f32
  shapeCasts_S4x4096x2048_S16384x2048 : S4x4096x2048.ShapeCasts S16384x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  shapeCasts_S16384x2048_S4x4096x2048 : S16384x2048.ShapeCasts S4x4096x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v5) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S512x512 : Shape := ⟨2, ![512, 512]⟩
abbrev S1024x512 : Shape := ⟨2, ![1024, 512]⟩
abbrev S2048x1024 : Shape := ⟨2, ![2048, 1024]⟩
abbrev S2048 : Shape := ⟨1, ![2048]⟩
abbrev S_ : Shape := ⟨0, ![]⟩
abbrev S2048x512 : Shape := ⟨2, ![2048, 512]⟩
abbrev S2048x2048 : Shape := ⟨2, ![2048, 2048]⟩
abbrev S1x1x2048 : Shape := ⟨3, ![1, 1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S512x512, .f32⟩
  | .hbm, ⟨2, _⟩ => ⟨S1024x512, .f32⟩
  | .hbm, ⟨3, _⟩ => ⟨S2048x1024, .f32⟩
  | .hbm, ⟨4, _⟩ => ⟨S2048, .f32⟩
  | .hbm, ⟨5, _⟩ => ⟨S_, .i32⟩
  | .hbm, ⟨6, _⟩ => ⟨S_, .f32⟩
  | .hbm, ⟨7, _⟩ => ⟨S2048x512, .f32⟩
  | .hbm, ⟨8, _⟩ => ⟨S_, .i32⟩
  | .hbm, ⟨9, _⟩ => ⟨S_, .f32⟩
  | .hbm, ⟨10, _⟩ => ⟨S2048x512, .f32⟩
  | .hbm, ⟨11, _⟩ => ⟨S_, .i32⟩
  | .hbm, ⟨12, _⟩ => ⟨S_, .f32⟩
  | .hbm, ⟨13, _⟩ => ⟨S2048x1024, .f32⟩
  | .hbm, ⟨14, _⟩ => ⟨S2048x2048, .f32⟩
  | .hbm, ⟨15, _⟩ => ⟨S4x4096x2048, .f32⟩
  | .hbm, ⟨16, _⟩ => ⟨S1x1x2048, .f32⟩
  | .hbm, ⟨17, _⟩ => ⟨S4x4096x2048, .f32⟩
  | .hbm, ⟨18, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  pads_S512x512_S2048x512_015360_000 : S512x512.Pads (![0, 0] : Fin 2 → Nat) ![1536, 0] ![0, 0] S2048x512
  h_S_ : 0 < S_.numel
  pads_S1024x512_S2048x512_010240_000 : S1024x512.Pads (![0, 0] : Fin 2 → Nat) ![1024, 0] ![0, 0] S2048x512
  pads_S2048x1024_S2048x1024_000_000 : S2048x1024.Pads (![0, 0] : Fin 2 → Nat) ![0, 0] ![0, 0] S2048x1024
  concatenates_S2048x512_S2048x512_S2048x1024_S2048x2048_d1 : Shape.Concatenates [S2048x512, S2048x512, S2048x1024] S2048x2048 1
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  dot_S4x4096x2048_S2048x2048_S4x4096x2048_2_0_01_1_n_n_wf : DotDims.WF S4x4096x2048 S2048x2048 S4x4096x2048 [2] [0] [0, 1] [1] [] []

variable [Facts₀]

def dot_S4x4096x2048_S2048x2048_S4x4096x2048_2_0_01_1_n_n : DotDims S4x4096x2048 S2048x2048 S4x4096x2048 where
  lhsContracting := [2]
  rhsContracting := [0]
  lhsNonContracting := [0, 1]
  rhsNonContracting := [1]
  lhsBatch := []
  rhsBatch := []
  wf := dot_S4x4096x2048_S2048x2048_S4x4096x2048_2_0_01_1_n_n_wf

class Facts : Prop extends Facts₀ where

variable [Facts]
-- ==== Proof.KernelFrame.lean ====
/-
  The frame of `Kernel`'s @main, at any float family: host lines (three zero-paddings, their concatenation along the
  columns into the 2048×2048 weight, its rounding, the reshape of the activations to 16384×2048), ONE region on a grid
  of 32 row blocks of 512 rows, and the reshape of the region's result back to 4×4096×2048.
  The region's body at a point loads its three input blocks whole (512 rows of activations, the whole weight, the whole
  bias), reads the output buffer without using it, and stores ONE value over the whole output block: the product of the
  row block with the weight, plus the bias along the rows. So after the body every input buffer holds its block and the
  output buffer the body's value of the input blocks; the arrays the windows stage are found as the host lines left
  them, every other buffer is untouched by the region, and the last reshape writes the result buffer only.
-/
import proofs.«142791_j87608742903883_1_alg».proof.Proof.Gen.Kernel.Launch
import proofs.«142791_j87608742903883_1_alg».proof.Proof.Gen.Kernel.Skeleton
import proofs.«142791_j87608742903883_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the host lines before it. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines, the region, and the last reshape: it reduces to the region continued by that reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The reshape after the region touches unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes the result buffer, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The reshape after the region writes only the result: `main_arg0` ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The reshape after the region writes only the result: `main_arg1` ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- The reshape after the region writes only the result: `main_arg2` ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- The reshape after the region writes only the result: `main_arg3` ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a window fetched at
    the first point only keeps its block: its index does not move). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The four arrays no window stages end as the reshape after the region leaves them, which is as launched; the bias,
    staged whole as an input, ends at its entry contents, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).1 2).trans (((dats 0 c).arrAt_in 2 rfl _).trans ((hA c 2).trans (V_main_arg4 m c)))⟩) h

/-! ## The body's accesses: each buffer whole -/

abbrev rX : Rect S512x2048 := Rect.unit (s := S512x2048) ![0, 0] S512x2048.size inb_S512x2048_S512x2048_0_0
abbrev rW : Rect S2048x2048 := Rect.unit (s := S2048x2048) ![0, 0] S2048x2048.size inb_S2048x2048_S2048x2048_0_0
abbrev rB : Rect S2048 := Rect.unit (s := S2048) ![0] S2048.size inb_S2048_S2048_0

/-! ## What the body leaves in the output window's buffer -/

/-- The output buffer after the body: its one store, over the whole block, of the body's value of the three loads. -/
def outBlock (x0 : Vec F S512x2048 .f32) (x1 : Vec F S2048x2048 .bf16) (x2 : Vec F S2048 .f32) : Vec F S512x2048 .f32 :=
  View.canon [⟨rX, k0_pay1 (View.ld x0 rX) (View.ld x1 rW) (View.ld x2 rB)⟩]

/-- The one store covers the buffer. -/
theorem outCover (p0 : Vec F S512x2048 .f32) (y : S512x2048.Idx) :
    ∃ pc ∈ ([⟨rX, p0⟩] : List (View.Piece (Elt F) S512x2048 .f32)), y ∈ pc.1.set :=
  View.cover_of_tiled [⟨rX, p0⟩] S512x2048.size (by rfl) y

/-! ## The body's triple -/

set_option maxHeartbeats 1000000 in
/-- The body on whole staging memrefs, the inputs' at contents `x0 x1 x2` and the output's at anything, runs to the
    continuation with the inputs' as they were and the output's at `outBlock x0 x1 x2`. -/
theorem sound_kernel (c : Dev nD) (E : Set ℕ) (i : grid0.Coords) (arg1 : Memref sig .tc .vmem S512x2048 .f32) (harg1 : arg1.IsWhole) (arg2 : Memref sig .tc .vmem S2048x2048 .bf16) (harg2 : arg2.IsWhole) (arg3 : Memref sig .tc .vmem S2048 .f32) (harg3 : arg3.IsWhole) (arg4 : Memref sig .tc .vmem S512x2048 .f32) (harg4 : arg4.IsWhole)
    (x0 : Vec F S512x2048 .f32) (x1 : Vec F S2048x2048 .bf16) (x2 : Vec F S2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outBlock x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-! ## The pipeline's proof data -/

/-- The arrays as the region finds them; after the body at point `t` each input's buffer at its block and the output's
    at the body's value of the three input blocks; the invariant the scoped rest and the generator register, untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outBlock (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    write-backs leave and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Fr

end
-- ==== Proof.KernelIdealFrame.lean ====
/-
  The frame of `KernelIdeal`'s @main, at any float family: host lines (three zero-paddings, their concatenation along the
  columns into the 2048×2048 weight, its rounding, the reshape of the activations to 16384×2048), ONE region on a grid
  of 32 row blocks of 512 rows, and the reshape of the region's result back to 4×4096×2048.
  The region's body at a point loads its three input blocks whole (512 rows of activations, the whole weight, the whole
  bias), reads the output buffer without using it, and stores ONE value over the whole output block: the product of the
  row block with the weight, plus the bias along the rows. So after the body every input buffer holds its block and the
  output buffer the body's value of the input blocks; the arrays the windows stage are found as the host lines left
  them, every other buffer is untouched by the region, and the last reshape writes the result buffer only.
-/
import proofs.«142791_j87608742903883_1_alg».proof.Proof.Gen.KernelIdeal.Launch
import proofs.«142791_j87608742903883_1_alg».proof.Proof.Gen.KernelIdeal.Skeleton
import proofs.«142791_j87608742903883_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the host lines before it. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines, the region, and the last reshape: it reduces to the region continued by that reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The reshape after the region touches unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes the result buffer, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The reshape after the region writes only the result: `main_arg0` ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The reshape after the region writes only the result: `main_arg1` ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- The reshape after the region writes only the result: `main_arg2` ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- The reshape after the region writes only the result: `main_arg3` ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a window fetched at
    the first point only keeps its block: its index does not move). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The four arrays no window stages end as the reshape after the region leaves them, which is as launched; the bias,
    staged whole as an input, ends at its entry contents, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).1 2).trans (((dats 0 c).arrAt_in 2 rfl _).trans ((hA c 2).trans (V_main_arg4 m c)))⟩) h

/-! ## The body's accesses: each buffer whole -/

abbrev rX : Rect S512x2048 := Rect.unit (s := S512x2048) ![0, 0] S512x2048.size inb_S512x2048_S512x2048_0_0
abbrev rW : Rect S2048x2048 := Rect.unit (s := S2048x2048) ![0, 0] S2048x2048.size inb_S2048x2048_S2048x2048_0_0
abbrev rB : Rect S2048 := Rect.unit (s := S2048) ![0] S2048.size inb_S2048_S2048_0

/-! ## What the body leaves in the output window's buffer -/

/-- The output buffer after the body: its one store, over the whole block, of the body's value of the three loads. -/
def outBlock (x0 : Vec F S512x2048 .f32) (x1 : Vec F S2048x2048 .bf16) (x2 : Vec F S2048 .f32) : Vec F S512x2048 .f32 :=
  View.canon [⟨rX, k0_pay1 (View.ld x0 rX) (View.ld x1 rW) (View.ld x2 rB)⟩]

/-- The one store covers the buffer. -/
theorem outCover (p0 : Vec F S512x2048 .f32) (y : S512x2048.Idx) :
    ∃ pc ∈ ([⟨rX, p0⟩] : List (View.Piece (Elt F) S512x2048 .f32)), y ∈ pc.1.set :=
  View.cover_of_tiled [⟨rX, p0⟩] S512x2048.size (by rfl) y

/-! ## The body's triple -/

set_option maxHeartbeats 1000000 in
/-- The body on whole staging memrefs, the inputs' at contents `x0 x1 x2` and the output's at anything, runs to the
    continuation with the inputs' as they were and the output's at `outBlock x0 x1 x2`. -/
theorem sound_kernel (c : Dev nD) (E : Set ℕ) (i : grid0.Coords) (arg1 : Memref sig .tc .vmem S512x2048 .f32) (harg1 : arg1.IsWhole) (arg2 : Memref sig .tc .vmem S2048x2048 .bf16) (harg2 : arg2.IsWhole) (arg3 : Memref sig .tc .vmem S2048 .f32) (harg3 : arg3.IsWhole) (arg4 : Memref sig .tc .vmem S512x2048 .f32) (harg4 : arg4.IsWhole)
    (x0 : Vec F S512x2048 .f32) (x1 : Vec F S2048x2048 .bf16) (x2 : Vec F S2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outBlock x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-! ## The pipeline's proof data -/

/-- The arrays as the region finds them; after the body at point `t` each input's buffer at its block and the output's
    at the body's value of the three input blocks; the invariant the scoped rest and the generator register, untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outBlock (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    write-backs leave and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Fr

end
-- ==== Proof.KernelIdealPayload.lean ====
/-
  The body's one stored value, read at an entry over the extended reals. At the ideal instance the rounding of
  the activations to bf16 and the two casts to the same shape are the identity, the matrix product into a zero
  accumulator is the plain sum over the contracted axis, and the bias, viewed as one row and repeated down the
  512 rows, is the bias at the column. So entry (p, q) of the stored block is (∑ k, x[p, k] · w[k, q]) + bias[q].
-/
import proofs.«142791_j87608742903883_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KVal

open Cert.KernelIdeal Cert.KernelIdeal.Gen Idealize.ShloMosaic Idealize.ShloMosaic.ValueIdx

/-! ## The product's operand indices: left (p, k), right (k, q) -/

theorem lhs_0 (i : S512x2048.Idx) (q : dot_S512x2048_S2048x2048_S512x2048_1_0_0_1_n_n.contr.Idx) :
    (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
theorem lhs_1 (i : S512x2048.Idx) (q : dot_S512x2048_S2048x2048_S512x2048_1_0_0_1_n_n.contr.Idx) :
    (dot_S512x2048_S2048x2048_S512x2048_1_0_0_1_n_n.lhsIdx i q 1).val = (q ⟨0, by decide⟩).val :=
  dot_S512x2048_S2048x2048_S512x2048_1_0_0_1_n_n.lhsIdx_val_of_single rfl i q
theorem rhs_0 (i : S512x2048.Idx) (q : dot_S512x2048_S2048x2048_S512x2048_1_0_0_1_n_n.contr.Idx) :
    (dot_S512x2048_S2048x2048_S512x2048_1_0_0_1_n_n.rhsIdx i q 0).val = (q ⟨0, by decide⟩).val :=
  dot_S512x2048_S2048x2048_S512x2048_1_0_0_1_n_n.rhsIdx_val_of_single rfl i q
theorem rhs_1 (i : S512x2048.Idx) (q : dot_S512x2048_S2048x2048_S512x2048_1_0_0_1_n_n.contr.Idx) :
    (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- The left operand's index for output entry `i` and contraction position `k`: (row of `i`, k). -/
abbrev lidx (i : S512x2048.Idx) (k : Fin 2048) : S512x2048.Idx := fun a => match a with
  | ⟨0, _⟩ => ⟨(i 0).val, (i 0).isLt⟩
  | ⟨1, _⟩ => ⟨k.val, k.isLt⟩
/-- The right operand's: (k, column of `i`). -/
abbrev ridx (i : S512x2048.Idx) (k : Fin 2048) : S2048x2048.Idx := fun a => match a with
  | ⟨0, _⟩ => ⟨k.val, k.isLt⟩
  | ⟨1, _⟩ => ⟨(i 1).val, (i 1).isLt⟩

/-- The block product into the zero accumulator, at an entry: the sum over the contracted axis. -/
theorem mm_apply (l : FVec Ideal S512x2048 .bf16) (r : FVec Ideal S2048x2048 .bf16) (i : S512x2048.Idx) :
    matmul (F := Ideal) dot_S512x2048_S2048x2048_S512x2048_1_0_0_1_n_n none l r (constant (F := Ideal) S512x2048 .f32 0x00000000#32) i
      = ∑ k : Fin 2048, l (lidx i k) * r (ridx i k) := by
  refine (Ideal.matmul_constant_zero_apply dot_S512x2048_S2048x2048_S512x2048_1_0_0_1_n_n none l r i).trans ?_
  rw [← Equiv.sum_comp (ValueIdx.contrEquiv1 dot_S512x2048_S2048x2048_S512x2048_1_0_0_1_n_n 2048 rfl rfl).symm]
  refine Finset.sum_congr rfl fun k _ => ?_
  have hk := ValueIdx.contrEquiv1_symm_val dot_S512x2048_S2048x2048_S512x2048_1_0_0_1_n_n 2048 rfl rfl k
  have el : dot_S512x2048_S2048x2048_S512x2048_1_0_0_1_n_n.lhsIdx i ((ValueIdx.contrEquiv1 dot_S512x2048_S2048x2048_S512x2048_1_0_0_1_n_n 2048 rfl rfl).symm k) = lidx i k := funext fun a => Fin.ext (by
    match a with
    | ⟨0, _⟩ => exact lhs_0 _ _
    | ⟨1, _⟩ => exact (lhs_1 _ _).trans hk)
  have er : dot_S512x2048_S2048x2048_S512x2048_1_0_0_1_n_n.rhsIdx i ((ValueIdx.contrEquiv1 dot_S512x2048_S2048x2048_S512x2048_1_0_0_1_n_n 2048 rfl rfl).symm k) = ridx i k := funext fun a => Fin.ext (by
    match a with
    | ⟨0, _⟩ => exact (rhs_0 _ _).trans hk
    | ⟨1, _⟩ => exact rhs_1 _ _)
  rw [el, er]

/-- The bias as one row, repeated down the rows, at an entry: the bias at the entry's column. -/
theorem bias_apply (b : FVec Ideal S2048 .f32) (i : S512x2048.Idx) :
    broadcastTo S512x2048 (shapeCast S1x2048 b shapeCasts_S2048_S1x2048) broadcasts_S1x2048_S512x2048 i
      = b (ix1 (n := 2048) ⟨(i 1).val, (i 1).isLt⟩) := by
  refine (broadcastTo_apply _ broadcasts_S1x2048_S512x2048 i (ix2 (n0 := 1) (n1 := 2048) ⟨0, Nat.one_pos⟩ ⟨(i 1).val, (i 1).isLt⟩) (fun a => ?_)).trans ?_
  · match a with
    | ⟨0, _⟩ => show 0 = if (1 : Nat) = 1 then 0 else (i 0).val; rw [if_pos rfl]
    | ⟨1, _⟩ => show (i 1).val = if (2048 : Nat) = 1 then 0 else (i 1).val; rw [if_neg (by decide)]
  · refine shapeCast_apply b shapeCasts_S2048_S1x2048 _ _ ?_
    rw [Shape.rowMajor_val_one, Shape.rowMajor_val_two]
    show (i 1).val = 0 * 2048 + (i 1).val
    omega

/-- Entry `i` of the stored block: the row of the activations block against the column of the weight, plus the bias
    at the column. -/
theorem pay_apply (x0 : Vec Ideal S512x2048 .f32) (x1 : Vec Ideal S2048x2048 .bf16) (x2 : Vec Ideal S2048 .f32) (i : S512x2048.Idx) :
    (k0_pay1 (F := Ideal) x0 x1 x2) i
      = (∑ k : Fin 2048, x0 (lidx i k) * x1 (ridx i k)) + x2 (ix1 (n := 2048) ⟨(i 1).val, (i 1).isLt⟩) := by
  unfold k0_pay1
  show (matmul (F := Ideal) dot_S512x2048_S2048x2048_S512x2048_1_0_0_1_n_n none
          (truncf .bf16 (shapeCast S512x2048 x0 shapeCasts_S512x2048_S512x2048) bitsLt_bf16_f32)
          (shapeCast S2048x2048 x1 shapeCasts_S2048x2048_S2048x2048)
          (constant (F := Ideal) S512x2048 .f32 0x00000000#32)) i
        + (broadcastTo S512x2048 (shapeCast S1x2048 x2 shapeCasts_S2048_S1x2048) broadcasts_S1x2048_S512x2048) i = _
  refine congrArg₂ (· + ·) ((mm_apply _ _ i).trans ?_) (bias_apply x2 i)
  refine Finset.sum_congr rfl fun k _ => ?_
  rw [shapeCast_self x1, shapeCast_self x0]
  rfl

end Cert.KernelIdeal.KVal

end
-- ==== Proof.Spec.lean ====
/-
  The function both programs compute, over the extended reals: an affine map along the last axis,
      out[b, s, o] = (∑ k, x[b, s, k] · W[k, o]) + bias[o],
  stated once over the activations as a 4 × 4096 × 2048 array (`batched`) and once over the same numbers laid out
  as 16384 rows of 2048 (`rows`). Row r of the flat layout is (b, s) with r = b · 4096 + s, so reading the
  flat result back as 4 × 4096 × 2048 gives the batched form: the two reshapes only rename the row.
-/
import Idealize.ShloMosaic.PureOps.Ideal
import Idealize.ShloMosaic.Lib.ValueIdx
import Idealize.ShloMosaic.Lib.Pipeline.Value

noncomputable section

namespace Cert.Affine

open Idealize.ShloMosaic Idealize.ShloMosaic.ValueIdx

abbrev SX : Shape := ⟨3, ![4, 4096, 2048]⟩
abbrev SR : Shape := ⟨2, ![16384, 2048]⟩
abbrev SW : Shape := ⟨2, ![2048, 2048]⟩
abbrev SB : Shape := ⟨1, ![2048]⟩

/-- Row r, column o of the flat result: the dot product of row r with column o of the weight, plus the bias at o. -/
def rows (X : SR.Idx → EReal) (W : SW.Idx → EReal) (b : SB.Idx → EReal) : SR.Idx → EReal :=
  fun j => (∑ k : Fin 2048, X (ix2 (n0 := 16384) (n1 := 2048) ⟨(j 0).val, (j 0).isLt⟩ k)
      * W (ix2 (n0 := 2048) (n1 := 2048) k ⟨(j 1).val, (j 1).isLt⟩)) + b (ix1 (n := 2048) ⟨(j 1).val, (j 1).isLt⟩)

/-- Entry (b, s, o) of the batched result. -/
def batched (x : SX.Idx → EReal) (W : SW.Idx → EReal) (b : SB.Idx → EReal) : SX.Idx → EReal :=
  fun i => (∑ k : Fin 2048, x (ix3 (n0 := 4) (n1 := 4096) (n2 := 2048) ⟨(i 0).val, (i 0).isLt⟩ ⟨(i 1).val, (i 1).isLt⟩ k)
      * W (ix2 (n0 := 2048) (n1 := 2048) k ⟨(i 2).val, (i 2).isLt⟩)) + b (ix1 (n := 2048) ⟨(i 2).val, (i 2).isLt⟩)

/-- The flat result of the flattened activations, read back as 4 × 4096 × 2048, is the batched result: entry
    (b, s, o) sits at row b · 4096 + s of the flat layout, and that row of the flattened activations is x[b, s, ·]. -/
theorem rows_reshape (x : SX.Idx → EReal) (W : SW.Idx → EReal) (b : SB.Idx → EReal)
    (h1 : SX.ShapeCasts SR) (h2 : SR.ShapeCasts SX) :
    shapeCast SX (rows (shapeCast SR x h1) W b) h2 = batched x W b := by
  funext i
  have hi0 : (i 0).val < 4 := (i 0).isLt
  have hi1 : (i 1).val < 4096 := (i 1).isLt
  have hi2 : (i 2).val < 2048 := (i 2).isLt
  have hr : (i 0).val * 4096 + (i 1).val < 16384 := by omega
  refine (shapeCast_apply _ h2 i (ix2 (n0 := 16384) (n1 := 2048) ⟨(i 0).val * 4096 + (i 1).val, hr⟩ ⟨(i 2).val, hi2⟩) ?_).trans ?_
  · rw [Shape.rowMajor_val_two, Shape.rowMajor_val_three]; rfl
  · show (∑ k : Fin 2048, shapeCast SR x h1 (ix2 (n0 := 16384) (n1 := 2048) ⟨(i 0).val * 4096 + (i 1).val, hr⟩ k)
        * W (ix2 (n0 := 2048) (n1 := 2048) k ⟨(i 2).val, hi2⟩)) + b (ix1 (n := 2048) ⟨(i 2).val, hi2⟩)
      = (∑ k : Fin 2048, x (ix3 (n0 := 4) (n1 := 4096) (n2 := 2048) ⟨(i 0).val, hi0⟩ ⟨(i 1).val, hi1⟩ k)
        * W (ix2 (n0 := 2048) (n1 := 2048) k ⟨(i 2).val, hi2⟩)) + b (ix1 (n := 2048) ⟨(i 2).val, hi2⟩)
    refine congrArg (· + b (ix1 (n := 2048) ⟨(i 2).val, hi2⟩)) (Finset.sum_congr rfl fun k _ => congrArg (· * W (ix2 (n0 := 2048) (n1 := 2048) k ⟨(i 2).val, hi2⟩)) ?_)
    refine shapeCast_apply x h1 _ _ ?_
    rw [Shape.rowMajor_val_two, Shape.rowMajor_val_three]; rfl

end Cert.Affine

end
-- ==== Proof.KernelIdealValue.lean ====
/-
  What the idealized kernel's program leaves in its result, over the extended reals.
  The host lines before the region leave the activations flattened to 16384 rows of 2048 and the weight as the three
  zero-padded pieces joined along the columns (its rounding to bf16 is the identity here). Grid point t of the region
  stages rows 512·t … 512·t + 511 of the activations with the whole weight and the whole bias, and writes back, to
  the same rows of the result, the row block's product with the weight plus the bias: block t of ONE function of
  the three arrays (`Affine.rows`). The 32 blocks tile the 16384 rows, so the region's result array IS that
  function; the reshape after the region reads it back as 4 × 4096 × 2048, which is `Affine.batched` of the
  launch arrays.
-/
import proofs.«142791_j87608742903883_1_alg».proof.Proof.KernelIdealFrame
import proofs.«142791_j87608742903883_1_alg».proof.Proof.KernelIdealPayload
import proofs.«142791_j87608742903883_1_alg».proof.Proof.Spec
import Idealize.ShloMosaic.Lib.Pipeline.Value
import Idealize.ShloMosaic.Lib.StableHlo.Run

set_option maxRecDepth 16384

noncomputable section

namespace Cert.KernelIdeal.KVal

open Cert.KernelIdeal Cert.KernelIdeal.Gen Cert.KernelIdeal.Fr
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays as the region finds them -/

/-- The weight the host lines build: each piece padded below with zeros to 2048 rows, the three joined along the columns. -/
def weight (x1 : S512x512.Idx → EReal) (x2 : S1024x512.Idx → EReal) (x3 : S2048x1024.Idx → EReal) : S2048x2048.Idx → EReal :=
  concatenate S2048x2048 1 [⟨S2048x512, (pad S2048x512 ![0, 0] ![1536, 0] ![0, 0] (x1 : FVec Ideal S512x512 .f32) (sitofp (F := Ideal) .f32 (constantI S_ 32 0#32)) pads_S512x512_S2048x512_015360_000 h_S_)⟩, ⟨S2048x512, (pad S2048x512 ![0, 0] ![1024, 0] ![0, 0] (x2 : FVec Ideal S1024x512 .f32) (sitofp (F := Ideal) .f32 (constantI S_ 32 0#32)) pads_S1024x512_S2048x512_010240_000 h_S_)⟩, ⟨S2048x1024, (pad S2048x1024 ![0, 0] ![0, 0] ![0, 0] (x3 : FVec Ideal S2048x1024 .f32) (sitofp (F := Ideal) .f32 (constantI S_ 32 0#32)) pads_S2048x1024_S2048x1024_000_000 h_S_)⟩] concatenates_S2048x512_S2048x512_S2048x1024_S2048x2048_d1

abbrev xarr (c : Dev nD) : S16384x2048.Idx → EReal := V m c main_v5
abbrev warr (c : Dev nD) : S2048x2048.Idx → EReal := V m c main_v4
abbrev barr (c : Dev nD) : S2048.Idx → EReal := V m c main_arg4

/-- The activations window's array: the launch activations flattened. -/
theorem xarr_eq (c : Dev nD) : xarr m c = shapeCast S16384x2048 (m ((c.tc : Thread nD τ).loc main_arg0)) shapeCasts_S4x4096x2048_S16384x2048 := by
  show StableHlo.after (List.flatten [hostOps0, hostOps0_1, hostOps0_2, hostOps0_3, hostOps0_4, hostOps0_5, hostOps0_6]) (fun b => m (c, b)) (Proc.devRef .tc main_v5) = _
  simp only [hostOps0, hostOps0_1, hostOps0_2, hostOps0_3, hostOps0_4, hostOps0_5, hostOps0_6, List.flatten_cons, List.flatten_nil, List.append_nil, List.cons_append, List.nil_append]
  after_results <;> rfl

/-- The weight window's array: the weight of the three launch pieces. -/
theorem warr_eq (c : Dev nD) : warr m c = weight (m ((c.tc : Thread nD τ).loc main_arg1)) (m ((c.tc : Thread nD τ).loc main_arg2)) (m ((c.tc : Thread nD τ).loc main_arg3)) := by
  show StableHlo.after (List.flatten [hostOps0, hostOps0_1, hostOps0_2, hostOps0_3, hostOps0_4, hostOps0_5, hostOps0_6]) (fun b => m (c, b)) (Proc.devRef .tc main_v4) = _
  simp only [hostOps0, hostOps0_1, hostOps0_2, hostOps0_3, hostOps0_4, hostOps0_5, hostOps0_6, List.flatten_cons, List.flatten_nil, List.append_nil, List.cons_append, List.nil_append]
  after_results <;> rfl

/-- The bias window's array: the launch bias. -/
theorem barr_eq (c : Dev nD) : barr m c = m ((c.tc : Thread nD τ).loc main_arg4) := V_main_arg4 m c

/-! ## The blocks a point stages -/

abbrev xblk (c : Dev nD) (t : Fin cfg0.N) : Vec Ideal S512x2048 .f32 := iblk m c 0 t
abbrev wblk (c : Dev nD) (t : Fin cfg0.N) : Vec Ideal S2048x2048 .bf16 := iblk m c 1 t
abbrev bblk (c : Dev nD) (t : Fin cfg0.N) : Vec Ideal S2048 .f32 := iblk m c 2 t

/-- The printed index maps over the grid: the activations and result windows move down one block of rows per point,
    the weight and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem t_lt (t : Fin cfg0.N) : t.val < 32 := lt_of_lt_of_eq t.isLt N_0

/-- Entry y of the activations block at point t is entry (512·t + y₀, y₁) of the flattened activations. -/
theorem xblk_apply (c : Dev nD) (t : Fin cfg0.N) (y : S512x2048.Idx) (r : Fin 16384) (q : Fin 2048)
    (hr : r.val = t.val * 512 + (y 0).val) (hq : q.val = (y 1).val) :
    xblk m c t y = xarr m c (ix2 r q) := by
  obtain ⟨e0, e1, -⟩ := idx_facts t
  show V m c main_v5 (((cfg0.win 0).blk t).view.emb y) = V m c main_v5 (ix2 r q)
  refine congrArg _ (funext fun a => Fin.ext ?_)
  match a with
  | ⟨0, _⟩ => show win0_0.index t (0 : Fin 2) * 512 + 1 * (y 0).val = r.val; omega
  | ⟨1, _⟩ => show win0_0.index t (1 : Fin 2) * 2048 + 1 * (y 1).val = q.val; omega

/-- The weight block is the whole weight. -/
theorem wblk_apply (c : Dev nD) (t : Fin cfg0.N) (y : S2048x2048.Idx) : wblk m c t y = warr m c y := by
  obtain ⟨-, -, e2, e3, -⟩ := idx_facts t
  show V m c main_v4 (((cfg0.win 1).blk t).view.emb y) = V m c main_v4 y
  refine congrArg _ (funext fun a => Fin.ext ?_)
  match a with
  | ⟨0, _⟩ => show win0_1.index t (0 : Fin 2) * 2048 + 1 * (y 0).val = (y 0).val; omega
  | ⟨1, _⟩ => show win0_1.index t (1 : Fin 2) * 2048 + 1 * (y 1).val = (y 1).val; omega

/-- The bias block is the whole bias. -/
theorem bblk_apply (c : Dev nD) (t : Fin cfg0.N) (y : S2048.Idx) : bblk m c t y = barr m c y := by
  obtain ⟨-, -, -, -, e4, -⟩ := idx_facts t
  show V m c main_arg4 (((cfg0.win 2).blk t).view.emb y) = V m c main_arg4 y
  refine congrArg _ (funext fun a => Fin.ext ?_)
  match a with
  | ⟨0, _⟩ => show win0_2.index t (0 : Fin 1) * 2048 + 1 * (y 0).val = (y 0).val; omega

/-! ## What a point writes back, and the whole result array -/

/-- The region's result array as one function of the three arrays the region finds. -/
abbrev G (c : Dev nD) : S16384x2048.Idx → EReal := Affine.rows (xarr m c) (warr m c) (barr m c)

theorem hz2 : (![0, 0] : Fin 2 → Nat) = fun _ => 0 := funext fun a => by fin_cases a <;> rfl
theorem hz1 : (![0] : Fin 1 → Nat) = fun _ => 0 := funext fun a => by fin_cases a <;> rfl

/-- The body's stored value of three blocks, at an entry whose row in the array is r: the row of the array against
    the weight's column, plus the bias there. -/
theorem stored_apply (x0 : Vec Ideal S512x2048 .f32) (x1 : Vec Ideal S2048x2048 .bf16) (x2 : Vec Ideal S2048 .f32)
    (X : S16384x2048.Idx → EReal) (W : S2048x2048.Idx → EReal) (b : S2048.Idx → EReal)
    (y : S512x2048.Idx) (j : S16384x2048.Idx)
    (hx : ∀ k : Fin 2048, x0 (lidx y k) = X (ix2 (n0 := 16384) (n1 := 2048) ⟨(j 0).val, (j 0).isLt⟩ k))
    (hw : ∀ k : Fin 2048, x1 (ridx y k) = W (ix2 (n0 := 2048) (n1 := 2048) k ⟨(j 1).val, (j 1).isLt⟩))
    (hb : x2 (ix1 (n := 2048) ⟨(y 1).val, (y 1).isLt⟩) = b (ix1 (n := 2048) ⟨(j 1).val, (j 1).isLt⟩)) :
    (k0_pay1 (F := Ideal) x0 x1 x2) y = Affine.rows X W b j := by
  refine (pay_apply x0 x1 x2 y).trans ?_
  show _ = (∑ k : Fin 2048, X (ix2 (n0 := 16384) (n1 := 2048) ⟨(j 0).val, (j 0).isLt⟩ k) * W (ix2 (n0 := 2048) (n1 := 2048) k ⟨(j 1).val, (j 1).isLt⟩)) + b (ix1 (n := 2048) ⟨(j 1).val, (j 1).isLt⟩)
  rw [hb]
  refine congrArg (· + b (ix1 (n := 2048) ⟨(j 1).val, (j 1).isLt⟩)) (Finset.sum_congr rfl fun k _ => ?_)
  rw [hx k, hw k]

/-- Point t writes back block t of `G`. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold outBlock
  rw [View.canon_unit_zero hz2]
  simp only [View.ld_unit_zero (S := S512x2048) hz2, View.ld_unit_zero (S := S2048x2048) hz2, View.ld_unit_zero (S := S2048) hz1]
  obtain ⟨-, -, -, -, -, e5, e6⟩ := idx_facts t
  have ht := t_lt t
  funext y
  have hy0 : (y 0).val < 512 := (y 0).isLt
  have hy1 : (y 1).val < 2048 := (y 1).isLt
  show (k0_pay1 (F := Ideal) (xblk m c t) (wblk m c t) (bblk m c t)) y = Affine.rows (xarr m c) (warr m c) (barr m c) (((cfg0.win 3).blk t).view.emb y)
  have j0 : ((((cfg0.win 3).blk t).view.emb y) 0).val = t.val * 512 + (y 0).val := by
    show win0_3.index t (0 : Fin 2) * 512 + 1 * (y 0).val = _; omega
  have j1 : ((((cfg0.win 3).blk t).view.emb y) 1).val = (y 1).val := by
    show win0_3.index t (1 : Fin 2) * 2048 + 1 * (y 1).val = _; omega
  refine stored_apply (xblk m c t) (wblk m c t) (bblk m c t) (xarr m c) (warr m c) (barr m c) y _ (fun k => ?_) (fun k => ?_) ?_
  · exact xblk_apply m c t (lidx y k) _ _ (by show _ = t.val * 512 + (y 0).val; exact j0) rfl
  · refine (wblk_apply m c t (ridx y k)).trans (congrArg _ (funext fun a => Fin.ext ?_))
    match a with
    | ⟨0, _⟩ => rfl
    | ⟨1, _⟩ => exact j1.symm
  · refine (bblk_apply m c t _).trans (congrArg _ (funext fun a => Fin.ext ?_))
    match a with
    | ⟨0, _⟩ => exact j1.symm

/-- An index of the result array is in point t's block iff each coordinate is in the block's range. -/
theorem mem_blk (t : Fin cfg0.N) (i : S16384x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v6).slice (win0_3.rect t)).set ↔ _
  rw [View.set_slice_whole, Rect.mem_set_unit]
  exact Iff.rfl

/-- Row r of the result array lies in the block of point r / 512: the blocks tile the array. -/
theorem cover (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  have hN : (i 0).val / 512 < cfg0.N := by show _ < grid0.N; rw [N_0]; omega
  refine ⟨⟨(i 0).val / 512, hN⟩, flush0_3 _, ?_⟩
  rw [mem_blk]
  obtain ⟨-, -, -, -, -, e5, e6⟩ := idx_facts ⟨(i 0).val / 512, hN⟩
  intro a
  match a with
  | ⟨0, _⟩ =>
    show win0_3.index ⟨(i 0).val / 512, hN⟩ (0 : Fin 2) * 512 ≤ (i 0).val ∧ (i 0).val < win0_3.index ⟨(i 0).val / 512, hN⟩ (0 : Fin 2) * 512 + 512
    rw [e5]; show (i 0).val / 512 * 512 ≤ (i 0).val ∧ (i 0).val < (i 0).val / 512 * 512 + 512; omega
  | ⟨1, _⟩ =>
    show win0_3.index ⟨(i 0).val / 512, hN⟩ (1 : Fin 2) * 2048 ≤ (i 1).val ∧ (i 1).val < win0_3.index ⟨(i 0).val / 512, hN⟩ (1 : Fin 2) * 2048 + 2048
    rw [e6]; omega

/-- The region's result array after the run. -/
theorem final (c : Dev nD) : (dats m 0 c).arrAt 3 cfg0.N = G m c :=
  (dats m 0 c).arrAt_eq_of_cover 3 (G m c) (fun t _ => flushed_eq m c t) cover

/-! ## The reshape after the region, and the run -/

/-- The program's result: the region's result array read back as 4 × 4096 × 2048. -/
theorem tail_result (c : Dev nD) :
    Pipeline.afterTail₀ cfgs (dats m) 0 (V0 m) [hostOps1] c main_v7
      = shapeCast S4x4096x2048 (G m c) shapeCasts_S16384x2048_S4x4096x2048 := by
  unfold Pipeline.afterTail₀
  show StableHlo.after hostOps1 _ (Proc.devRef .tc main_v7) = _
  after_results
  rw [(Pipeline.withArrays_arr spec0 launch0.win.arr_inj c _ _ 3).trans (final m c)]
  rfl

/-- The result as the affine map of the launch arrays. -/
theorem result_eq (c : Dev nD) :
    shapeCast S4x4096x2048 (G m c) shapeCasts_S16384x2048_S4x4096x2048
      = Affine.batched (m ((c.tc : Thread nD τ).loc main_arg0))
          (weight (m ((c.tc : Thread nD τ).loc main_arg1)) (m ((c.tc : Thread nD τ).loc main_arg2)) (m ((c.tc : Thread nD τ).loc main_arg3)))
          (m ((c.tc : Thread nD τ).loc main_arg4)) := by
  unfold G
  rw [xarr_eq, warr_eq, barr_eq]
  exact Affine.rows_reshape _ _ _ _ _

/-- Every weakly fair execution of the idealized kernel's @main terminates with the result at the affine map of the
    launch arrays and the arguments unchanged. -/
theorem run : θ_run defs (onTc (τ := τ) (main (F := Ideal))) ⟨m, fun _ => 0, ρ⟩ fun r => ∀ c : Dev nD,
      r.2.mem ((c.tc : Thread nD τ).loc main_v7) = Affine.batched (m ((c.tc : Thread nD τ).loc main_arg0))
          (weight (m ((c.tc : Thread nD τ).loc main_arg1)) (m ((c.tc : Thread nD τ).loc main_arg2)) (m ((c.tc : Thread nD τ).loc main_arg3)))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      (((h c).2 main_v7 (Pipeline.mem_restRefs_of main_v7 (by decide) (by decide))).trans (tail_result m c)).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 2).trans ((((dats m) 0 c).arrAt_in 2 rfl _).trans ((A_eq m c 2).trans (V_main_arg4 m c)))⟩)
    (run_main m ρ)

end Cert.KernelIdeal.KVal

end
-- ==== Proof.RefValue.lean ====
/-
  The reference at an entry, over the extended reals: its dot_general contracts the last axis of the activations
  with the first axis of the weight, so entry (b, s, o) is ∑ k, x[b, s, k] · W[k, o]; the bias, broadcast first to
  1 × 1 × 2048 and then over the batch and the sequence, adds bias[o]. That is the batched form of the affine map,
  with W whatever the reference's host lines build from the three pieces.
-/
import proofs.«142791_j87608742903883_1_alg».proof.Proof.Gen.ReferenceIdeal.Run
import proofs.«142791_j87608742903883_1_alg».proof.Proof.Gen.ReferenceIdeal.Read
import proofs.«142791_j87608742903883_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The left operand's index of the contraction: (b, s, k). -/
theorem lidx_eq (i : S4x4096x2048.Idx) (k : Fin 2048) :
    lidx_main_v4 i k = ix3 (n0 := 4) (n1 := 4096) (n2 := 2048) ⟨(i 0).val, (i 0).isLt⟩ ⟨(i 1).val, (i 1).isLt⟩ k :=
  funext fun a => Fin.ext (by match a with | ⟨0, _⟩ => rfl | ⟨1, _⟩ => rfl | ⟨2, _⟩ => rfl)
/-- The right operand's: (k, o). -/
theorem ridx_eq (i : S4x4096x2048.Idx) (k : Fin 2048) :
    ridx_main_v4 i k = ix2 (n0 := 2048) (n1 := 2048) k ⟨(i 2).val, (i 2).isLt⟩ :=
  funext fun a => Fin.ext (by match a with | ⟨0, _⟩ => rfl | ⟨1, _⟩ => rfl)
/-- Through the two broadcasts the bias is read at o. -/
theorem bidx_eq (i : S4x4096x2048.Idx) :
    idx_main_v5 (idx_main_v6 i) = ix1 (n := 2048) ⟨(i 2).val, (i 2).isLt⟩ :=
  funext fun a => Fin.ext (by match a with | ⟨0, _⟩ => rfl)

/-- The reference's result is the batched affine map of the activations, the weight its host lines build, and the bias. -/
theorem ref_eq (x0 : (⟨S4x4096x2048, .f32⟩ : BufTy).Contents (Elt Ideal)) (x1 : (⟨S512x512, .f32⟩ : BufTy).Contents (Elt Ideal))
    (x2 : (⟨S1024x512, .f32⟩ : BufTy).Contents (Elt Ideal)) (x3 : (⟨S2048x1024, .f32⟩ : BufTy).Contents (Elt Ideal))
    (x4 : (⟨S2048, .f32⟩ : BufTy).Contents (Elt Ideal)) :
    val_main_v7 (F := Ideal) x0 x1 x2 x3 x4 = Affine.batched x0 (val_main_v3 (F := Ideal) x1 x2 x3) x4 := by
  funext i
  rw [val_main_v7_apply, val_main_v4_apply, val_main_v6_apply, val_main_v5_apply]
  simp only [lidx_eq, ridx_eq, bidx_eq]
  rfl

end Cert.ReferenceIdeal.RefValue

end
-- ==== Proof.lean ====
/-
  The kernel flattens the activations x to 16384 rows, builds the weight W by padding its three pieces with zero rows
  and joining them along the columns, and on a grid of 32 row blocks computes  x_block · W + bias  on the matrix
  unit (operands rounded to bf16, accumulated in f32), then reads the 16384 × 2048 result back as 4 × 4096 × 2048.
  The reference builds the same W and takes  einsum('bsi,io->bso', x, W) + bias.
  Over the extended reals the rounding is the identity, a block product into a zero accumulator and the host's
  dot_general are both the plain sum over the contracted axis, and flattening the leading axes only renames the row.
  So both programs end at  out[b, s, o] = (∑ k, x[b, s, k] · W[k, o]) + bias[o]  (`Affine.batched`), with the SAME
  W: the two programs' host lines for it are the same operations on the same pieces, so it is carried as one term and
  never opened. Only commutative-monoid facts of + are used (none at all beyond the zero accumulator), so finiteness
  of the inputs is not needed.
  The frames: each kernel program runs its host lines, its one region (whose body loads whole blocks and stores one
  whole block) and the final reshape, leaving the five arguments as launched; the reference is host lines only.
  Nothing was rewritten by the ideal pass, so `preserves` is `True`.
-/
import proofs.«142791_j87608742903883_1_alg».proof.Defs
import proofs.«142791_j87608742903883_1_alg».proof.Proof.Gen.Kernel
import proofs.«142791_j87608742903883_1_alg».proof.Proof.Gen.KernelIdeal
import proofs.«142791_j87608742903883_1_alg».proof.Proof.Gen.ReferenceIdeal
import proofs.«142791_j87608742903883_1_alg».proof.Proof.Gen.Pre_finite_inputs
import proofs.«142791_j87608742903883_1_alg».proof.Proof.KernelFrame
import proofs.«142791_j87608742903883_1_alg».proof.Proof.KernelIdealFrame
import proofs.«142791_j87608742903883_1_alg».proof.Proof.KernelIdealValue
import proofs.«142791_j87608742903883_1_alg».proof.Proof.RefValue
import Idealize.ShloMosaic.Adequacy
import Idealize.ShloMosaic.Init

noncomputable section

namespace Cert.Proof

open Idealize.ShloMosaic Idealize.SL.Sem

/-- The weight the reference's host lines build is the weight the kernel's host lines build: the same pads of the same
    pieces with the same zero, joined the same way. -/
theorem weight_eq (x1 : Cert.KernelIdeal.S512x512.Idx → EReal) (x2 : Cert.KernelIdeal.S1024x512.Idx → EReal) (x3 : Cert.KernelIdeal.S2048x1024.Idx → EReal) :
    Cert.ReferenceIdeal.Read.val_main_v3 (F := Ideal) x1 x2 x3 = Cert.KernelIdeal.KVal.weight x1 x2 x3 := rfl

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the five arguments both programs end at the batched affine map of them. -/
theorem algebraic : Cert.algebraic_KernelIdeal_ReferenceIdeal := by
  intro m ρ m' ρ' _ hagree
  refine ⟨_, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact ((Cert.ReferenceIdeal.Read.val_main_v7_eq _ _ _ _ _).trans (Cert.ReferenceIdeal.RefValue.ref_eq _ _ _ _ _)).trans
    (congrArg (fun W => Cert.Affine.batched _ W _) (weight_eq _ _ _))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
